-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : FVec F S4x4096x64 .f32) (main_arg2 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S4x4096x64 .f32 := Host.absf main_arg2
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_c_3 : IVec S_ 1 := constantI S_ 1 1#1
  let main_v12 : IVec S_ 1 := (fun x v => Host.reduce IntOp.andi x v reducesTo_S4x4096x64_S_d0_1_2 h_S_) main_v11 main_c_3
  let main_v13 : IVec S_ 1 := andi main_v8 main_v12
  main_v13
-- ==== Kernel.lean ====
abbrev S4x4096x64 : Shape := ⟨3, ![4, 4096, 64]⟩
abbrev S1x1024x64 : Shape := ⟨3, ![1, 1024, 64]⟩
abbrev S1x2048x64 : Shape := ⟨3, ![1, 2048, 64]⟩
abbrev S1024x1 : Shape := ⟨2, ![1024, 1]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩

abbrev nBuf : Space → Nat
  | .hbm => 4
  | .vmem => 9
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x1024x64, .f32⟩
  | .local _ .vmem, ⟨5, _⟩ => ⟨S1x1024x64, .f32⟩
  | .local _ .vmem, ⟨6, _⟩ => ⟨S1024x1, .f32⟩
  | .local _ .vmem, ⟨7, _⟩ => ⟨S1024x1, .f32⟩
  | .local _ .vmem, ⟨8, _⟩ => ⟨S1024x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v41 : BitVec 1 := Scalar.cmpi .eq arg2 c1_i32
  let v42 : BitVec 32 := Scalar.extui v41
  let c0_i32_22 : BitVec 32 := 0#32
  let v43 : BitVec 1 := Scalar.cmpi .ne v42 c0_i32_22
  v43

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x4096x64.size a
  hwx0_0 : ∀ i : grid0.Coords, EltTy.bits .f32 = 32 ∨ (Rect.block (s := S4x4096x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S4x4096x64.size a
  hwx0_1 : ∀ i : grid0.Coords, EltTy.bits .f32 = 32 ∨ (Rect.block (s := S4x4096x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S4x4096x64.size a
  hwx0_2 : ∀ i : grid0.Coords, EltTy.bits .f32 = 32 ∨ (Rect.block (s := S4x4096x64) S1x1024x64.size (cc0_transform_2 i) (hinb0_2 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096x4096, .f32⟩
  | .hbm, ⟨4, _⟩ => ⟨S_, .f32⟩
  | .hbm, ⟨5, _⟩ => ⟨S4x4096x4096, .f32⟩
  | .hbm, ⟨6, _⟩ => ⟨S4x4096x4096, .f32⟩
  | .hbm, ⟨7, _⟩ => ⟨S_, .f32⟩
  | .hbm, ⟨8, _⟩ => ⟨S4x4096, .f32⟩
  | .hbm, ⟨9, _⟩ => ⟨S_, .f32⟩
  | .hbm, ⟨10, _⟩ => ⟨S4x4096, .f32⟩
  | .hbm, ⟨11, _⟩ => ⟨S4x4096, .f32⟩
  | .hbm, ⟨12, _⟩ => ⟨S4x4096x1, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S4x4096x4096, .f32⟩
  | .hbm, ⟨20, _⟩ => ⟨S4x4096x4096, .f32⟩
  | .hbm, ⟨21, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.Pieces.lean ====
/- What one execution of the kernel body leaves in the carried maximum, denominator and numerator and in the
   output block, as the body's arithmetic applied to what it read.

   At a first key block (the reset case) the three carried buffers are first set to minus infinity, zero and
   zero, and the update then reads those values back; at a later key block (the final case) the update reads
   what the previous execution left, and the output block is the new numerator divided by the new denominator. -/
import proofs.«418998_j80711025426734_3_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL Idealize.SL.Sem

variable {F : FTy → Type} [FloatOps F]

/-- The zero offsets of a rank-2 and of a rank-3 whole-buffer access. -/
theorem hz2 : (![0, 0] : Fin 2 → Nat) = fun _ => 0 := by funext a; match a with | ⟨0, _⟩ => rfl | ⟨1, _⟩ => rfl
theorem hz3 : (![0, 0, 0] : Fin 3 → Nat) = fun _ => 0 := by funext a; match a with | ⟨0, _⟩ => rfl | ⟨1, _⟩ => rfl | ⟨2, _⟩ => rfl

/-- Reset case, carried maximum: the block's row maxima against minus infinity. -/
theorem sout_A_0_eq (c : Dev nD) (i : grid0.Coords) (arg3 : Memref sig .tc .vmem S1x1024x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i)
    (x0 : Vec F S1x1024x64 .f32) (x1 : Vec F S1x2048x64 .f32) :
    sout0_A_0 c i arg3 harg3 arg4 harg4 arg5 harg5 arg6 harg6 arg7 harg7 arg8 harg8 hc0 hc1 x0 x1 = k0_pay2 (k0_pay9 x0 x1 (k0_pay4 (F := F))) := by
  unfold sout0_A_0
  rw [View.read_writes_eq_canon _ _ _ (scover0_A_0 c i arg3 harg3 arg4 harg4 arg5 harg5 arg6 harg6 arg7 harg7 arg8 harg8 hc0 hc1 x0 x1)]
  unfold kernelRun0_A
  dsimp only
  sl_unfold_words
  rw [View.canon_cons_unit_zero (S := S1024x1) hz2]
  simp only [View.readAt_eq_ld, Memref.IsWhole.read_unread, View.ld_unit_zero (S := S1x1024x64) hz3, View.ld_unit_zero (S := S1x2048x64) hz3,
    View.ld_unit_zero (S := S1024x1) hz2, View.ld_unit_zero (S := S1024x64) hz2,
    View.readCov_unit_zero (S := S1024x1) _ hz2, View.readCov_unit_zero (S := S1024x64) _ hz2]

/-- Reset case, carried denominator: the update from maximum minus infinity and denominator zero. -/
theorem sout_A_1_eq (c : Dev nD) (i : grid0.Coords) (arg3 : Memref sig .tc .vmem S1x1024x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i)
    (x0 : Vec F S1x1024x64 .f32) (x1 : Vec F S1x2048x64 .f32) :
    sout0_A_1 c i arg3 harg3 arg4 harg4 arg5 harg5 arg6 harg6 arg7 harg7 arg8 harg8 hc0 hc1 x0 x1 = k0_pay12 x0 x1 (k0_pay4 (F := F)) (k0_pay5 (F := F)) := by
  unfold sout0_A_1
  rw [View.read_writes_eq_canon _ _ _ (scover0_A_1 c i arg3 harg3 arg4 harg4 arg5 harg5 arg6 harg6 arg7 harg7 arg8 harg8 hc0 hc1 x0 x1)]
  unfold kernelRun0_A
  dsimp only
  sl_unfold_words
  rw [View.canon_cons_unit_zero (S := S1024x1) hz2]
  simp only [View.readAt_eq_ld, Memref.IsWhole.read_unread, View.ld_unit_zero (S := S1x1024x64) hz3, View.ld_unit_zero (S := S1x2048x64) hz3,
    View.ld_unit_zero (S := S1024x1) hz2, View.ld_unit_zero (S := S1024x64) hz2,
    View.readCov_unit_zero (S := S1024x1) _ hz2, View.readCov_unit_zero (S := S1024x64) _ hz2]

/-- Reset case, carried numerator: the update from maximum minus infinity and numerator zero. -/
theorem sout_A_2_eq (c : Dev nD) (i : grid0.Coords) (arg3 : Memref sig .tc .vmem S1x1024x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i)
    (x0 : Vec F S1x1024x64 .f32) (x1 : Vec F S1x2048x64 .f32) :
    sout0_A_2 c i arg3 harg3 arg4 harg4 arg5 harg5 arg6 harg6 arg7 harg7 arg8 harg8 hc0 hc1 x0 x1 = k0_pay1 (k0_pay13 x0 x1 (k0_pay4 (F := F))) (k0_pay14 x0 x1 (k0_pay4 (F := F)) (k0_pay6 (F := F))) := by
  unfold sout0_A_2
  rw [View.read_writes_eq_canon _ _ _ (scover0_A_2 c i arg3 harg3 arg4 harg4 arg5 harg5 arg6 harg6 arg7 harg7 arg8 harg8 hc0 hc1 x0 x1)]
  unfold kernelRun0_A
  dsimp only
  sl_unfold_words
  rw [View.canon_cons_unit_zero (S := S1024x64) hz2]
  simp only [View.readAt_eq_ld, Memref.IsWhole.read_unread, View.ld_unit_zero (S := S1x1024x64) hz3, View.ld_unit_zero (S := S1x2048x64) hz3,
    View.ld_unit_zero (S := S1024x1) hz2, View.ld_unit_zero (S := S1024x64) hz2,
    View.readCov_unit_zero (S := S1024x1) _ hz2, View.readCov_unit_zero (S := S1024x64) _ hz2]

/-- Final case, carried maximum: the update of the maximum the previous execution left. -/
theorem sout_B_0_eq (c : Dev nD) (i : grid0.Coords) (arg3 : Memref sig .tc .vmem S1x1024x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i)
    (x0 : Vec F S1x1024x64 .f32) (x1 : Vec F S1x2048x64 .f32) (xs0 : Vec F S1024x1 .f32) (xs1 : Vec F S1024x1 .f32) (xs2 : Vec F S1024x64 .f32) :
    sout0_B_0 c i arg3 harg3 arg4 harg4 arg5 harg5 arg6 harg6 arg7 harg7 arg8 harg8 hc0 hc1 x0 x1 xs0 xs1 xs2 = k0_pay2 (k0_pay9 x0 x1 xs0) := by
  unfold sout0_B_0
  rw [View.read_writes_eq_canon _ _ _ (scover0_B_0 c i arg3 harg3 arg4 harg4 arg5 harg5 arg6 harg6 arg7 harg7 arg8 harg8 hc0 hc1 x0 x1 xs0 xs1 xs2)]
  unfold kernelRun0_B
  dsimp only
  sl_unfold_words
  rw [View.canon_unit_zero (S := S1024x1) hz2]
  simp only [View.readAt_eq_ld, Memref.IsWhole.read_unread, View.ld_unit_zero (S := S1x1024x64) hz3, View.ld_unit_zero (S := S1x2048x64) hz3,
    View.ld_unit_zero (S := S1024x1) hz2, View.ld_unit_zero (S := S1024x64) hz2,
    View.readCov_unit_zero (S := S1024x1) _ hz2, View.readCov_unit_zero (S := S1024x64) _ hz2]

/-- Final case, carried denominator. -/
theorem sout_B_1_eq (c : Dev nD) (i : grid0.Coords) (arg3 : Memref sig .tc .vmem S1x1024x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i)
    (x0 : Vec F S1x1024x64 .f32) (x1 : Vec F S1x2048x64 .f32) (xs0 : Vec F S1024x1 .f32) (xs1 : Vec F S1024x1 .f32) (xs2 : Vec F S1024x64 .f32) :
    sout0_B_1 c i arg3 harg3 arg4 harg4 arg5 harg5 arg6 harg6 arg7 harg7 arg8 harg8 hc0 hc1 x0 x1 xs0 xs1 xs2 = k0_pay12 x0 x1 xs0 xs1 := by
  unfold sout0_B_1
  rw [View.read_writes_eq_canon _ _ _ (scover0_B_1 c i arg3 harg3 arg4 harg4 arg5 harg5 arg6 harg6 arg7 harg7 arg8 harg8 hc0 hc1 x0 x1 xs0 xs1 xs2)]
  unfold kernelRun0_B
  dsimp only
  sl_unfold_words
  rw [View.canon_unit_zero (S := S1024x1) hz2]
  simp only [View.readAt_eq_ld, Memref.IsWhole.read_unread, View.ld_unit_zero (S := S1x1024x64) hz3, View.ld_unit_zero (S := S1x2048x64) hz3,
    View.ld_unit_zero (S := S1024x1) hz2, View.ld_unit_zero (S := S1024x64) hz2,
    View.readCov_unit_zero (S := S1024x1) _ hz2, View.readCov_unit_zero (S := S1024x64) _ hz2]

/-- Final case, carried numerator. -/
theorem sout_B_2_eq (c : Dev nD) (i : grid0.Coords) (arg3 : Memref sig .tc .vmem S1x1024x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i)
    (x0 : Vec F S1x1024x64 .f32) (x1 : Vec F S1x2048x64 .f32) (xs0 : Vec F S1024x1 .f32) (xs1 : Vec F S1024x1 .f32) (xs2 : Vec F S1024x64 .f32) :
    sout0_B_2 c i arg3 harg3 arg4 harg4 arg5 harg5 arg6 harg6 arg7 harg7 arg8 harg8 hc0 hc1 x0 x1 xs0 xs1 xs2 = k0_pay1 (k0_pay13 x0 x1 xs0) (k0_pay14 x0 x1 xs0 xs2) := by
  unfold sout0_B_2
  rw [View.read_writes_eq_canon _ _ _ (scover0_B_2 c i arg3 harg3 arg4 harg4 arg5 harg5 arg6 harg6 arg7 harg7 arg8 harg8 hc0 hc1 x0 x1 xs0 xs1 xs2)]
  unfold kernelRun0_B
  dsimp only
  sl_unfold_words
  rw [View.canon_unit_zero (S := S1024x64) hz2]
  simp only [View.readAt_eq_ld, Memref.IsWhole.read_unread, View.ld_unit_zero (S := S1x1024x64) hz3, View.ld_unit_zero (S := S1x2048x64) hz3,
    View.ld_unit_zero (S := S1024x1) hz2, View.ld_unit_zero (S := S1024x64) hz2,
    View.readCov_unit_zero (S := S1024x1) _ hz2, View.readCov_unit_zero (S := S1024x64) _ hz2]

/-- Final case, output block: the new numerator over the new denominator. -/
theorem out_B_2_eq (c : Dev nD) (i : grid0.Coords) (arg3 : Memref sig .tc .vmem S1x1024x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i)
    (x0 : Vec F S1x1024x64 .f32) (x1 : Vec F S1x2048x64 .f32) (xs0 : Vec F S1024x1 .f32) (xs1 : Vec F S1024x1 .f32) (xs2 : Vec F S1024x64 .f32) :
    out0_B_2 c i arg3 harg3 arg4 harg4 arg5 harg5 arg6 harg6 arg7 harg7 arg8 harg8 hc0 hc1 x0 x1 xs0 xs1 xs2 = k0_pay3 (k0_pay1 (k0_pay13 x0 x1 xs0) (k0_pay14 x0 x1 xs0 xs2)) (k0_pay12 x0 x1 xs0 xs1) := by
  unfold out0_B_2
  rw [View.read_writes_eq_canon _ _ _ (cover0_B_2 c i arg3 harg3 arg4 harg4 arg5 harg5 arg6 harg6 arg7 harg7 arg8 harg8 hc0 hc1 x0 x1 xs0 xs1 xs2)]
  unfold kernelRun0_B
  dsimp only
  sl_unfold_words
  rw [View.canon_unit_zero (S := S1x1024x64) hz3]
  simp only [View.readAt_eq_ld, Memref.IsWhole.read_unread, View.ld_unit_zero (S := S1x1024x64) hz3, View.ld_unit_zero (S := S1x2048x64) hz3,
    View.ld_unit_zero (S := S1024x1) hz2, View.ld_unit_zero (S := S1024x64) hz2,
    View.readCov_unit_zero (S := S1024x1) _ hz2, View.readCov_unit_zero (S := S1024x64) _ hz2]

end Cert.KernelIdeal.Pieces

end
-- ==== Proof.Blocks.lean ====
/- Where the kernel's blocks sit in the arrays.

   The grid has 32 points; point t is (batch, query tile, key block) = (t / 8, t / 2 % 4, t % 2). The query
   window's block at t is rows [1024 * (t / 2 % 4), +1024) of batch t / 8 of the first argument, the key window's
   block rows [2048 * (t % 2), +2048) of the same batch of the second argument, and the output window's block the
   same rows of the result as the query block. -/
import proofs.«418998_j80711025426734_3_alg».proof.Proof.Gen.KernelIdeal.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL Idealize.SL.Sem

variable (m : (ℓ : Loc nD τ sig) → Buf (Elt Ideal) ℓ)

/-- The query block, the key block, and the two argument arrays, at their literal types. -/
abbrev qblk (c : Dev nD) (t : Fin cfg0.N) : Vec Ideal S1x1024x64 .f32 := iblk m c 0 t
abbrev kblk (c : Dev nD) (t : Fin cfg0.N) : Vec Ideal S1x2048x64 .f32 := iblk m c 1 t
abbrev qarr (c : Dev nD) : Vec Ideal S4x4096x64 .f32 := V m c main_arg0
abbrev karr (c : Dev nD) : Vec Ideal S4x4096x64 .f32 := V m c main_arg1

/-- The printed index maps at point t, decided over the grid. -/
theorem idx_facts : ∀ t : Fin cfg0.N,
    win0_0.index t (0 : Fin 3) = t.val / 8 ∧ win0_0.index t (1 : Fin 3) = t.val / 2 % 4 ∧ win0_0.index t (2 : Fin 3) = 0
    ∧ win0_1.index t (0 : Fin 3) = t.val / 8 ∧ win0_1.index t (1 : Fin 3) = t.val % 2 ∧ win0_1.index t (2 : Fin 3) = 0
    ∧ win0_2.index t (0 : Fin 3) = t.val / 8 ∧ win0_2.index t (1 : Fin 3) = t.val / 2 % 4 ∧ win0_2.index t (2 : Fin 3) = 0 :=
  (by decide +kernel : ∀ t : Fin grid0.N, _)

theorem N32 : cfg0.N = 32 := N_0

/-- Row r, column dd of the query block at t is row 1024 * (t / 2 % 4) + r of batch t / 8 of the first argument. -/
theorem qblk_apply (c : Dev nD) (t : Fin cfg0.N) (r : Fin 1024) (dd : Fin 64) (b : Fin 4) (q : Fin 4096)
    (hb : b.val = t.val / 8) (hq : q.val = t.val / 2 % 4 * 1024 + r.val) :
    qblk m c t (ix3 (0 : Fin 1) r dd) = qarr m c (ix3 b q dd) := by
  obtain ⟨e0, e1, e2, -⟩ := idx_facts t
  show V m c main_arg0 (((cfg0.win 0).blk t).view.emb (ix3 (0 : Fin 1) r dd)) = V m c main_arg0 (ix3 b q dd)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 1024 + 1 * r.val = q.val; omega
  | ⟨2, _⟩ => show win0_0.index t (2 : Fin 3) * 64 + 1 * dd.val = dd.val; omega

/-- Row j, column dd of the key block at t is row 2048 * (t % 2) + j of batch t / 8 of the second argument. -/
theorem kblk_apply (c : Dev nD) (t : Fin cfg0.N) (j : Fin 2048) (dd : Fin 64) (b : Fin 4) (k : Fin 4096)
    (hb : b.val = t.val / 8) (hk : k.val = t.val % 2 * 2048 + j.val) :
    kblk m c t (ix3 (0 : Fin 1) j dd) = karr m c (ix3 b k dd) := by
  obtain ⟨-, -, -, e0, e1, e2, -⟩ := idx_facts t
  show V m c main_arg1 (((cfg0.win 1).blk t).view.emb (ix3 (0 : Fin 1) j dd)) = V m c main_arg1 (ix3 b k dd)
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 2048 + 1 * j.val = k.val; omega
  | ⟨2, _⟩ => show win0_1.index t (2 : Fin 3) * 64 + 1 * dd.val = dd.val; omega

end Cert.KernelIdeal.Blocks

end
-- ==== Proof.SoftmaxDefs.lean ====
/- The two ways of computing one row of softmax attention, as functions on the extended reals.

   A row has scores `s k` and, for a fixed output column, values `v k`. The plain form takes the row's
   maximum `M`, the weights `exp (s k - M)`, their sum `Z`, and returns `∑ k, (exp (s k - M) / Z) * v k`.
   The blockwise form walks the keys block by block and carries a running maximum `m`, a running
   denominator `l` and a running numerator `a`: a block with scores `s` and values `v` replaces
   `m` by `m' = max m (max s)`, `l` by `exp (m - m') * l + ∑ exp (s j - m')` and `a` by
   `exp (m - m') * a + ∑ exp (s j - m') * v j`; it starts from `m = -∞`, `l = 0`, `a = 0` and returns
   `a / l` after the last block. -/
import Idealize.ShloMosaic.PureOps.Ideal

noncomputable section

namespace Cert.Softmax

open Idealize.ShloMosaic

variable {n : ℕ}

/-- The largest of a block's scores, as a fold of `max` from the bottom element. -/
def rowMax (s : Fin n → EReal) : EReal := (Finset.univ : Finset (Fin n)).fold max ⊥ s

/-- The running maximum after a block. -/
def mNew (m : EReal) (s : Fin n → EReal) : EReal := max m (rowMax s)

/-- The factor that rescales what was accumulated under the old maximum. -/
def scale (m : EReal) (s : Fin n → EReal) : EReal := Ideal.exp (m - mNew m s)

/-- The running denominator after a block. -/
def lNew (m l : EReal) (s : Fin n → EReal) : EReal :=
  scale m s * l + ∑ j : Fin n, Ideal.exp (s j - mNew m s)

/-- The running numerator after a block. -/
def aNew (m a : EReal) (s v : Fin n → EReal) : EReal :=
  scale m s * a + ∑ j : Fin n, Ideal.exp (s j - mNew m s) * v j

/-- The blockwise form over two blocks. -/
def online2 (s0 s1 v0 v1 : Fin n → EReal) : EReal :=
  Ideal.div (aNew (mNew ⊥ s0) (aNew ⊥ 0 s0 v0) s1 v1) (lNew (mNew ⊥ s0) (lNew ⊥ 0 s0) s1)

/-- The plain form over all keys. -/
def softmaxSum {N : ℕ} (s v : Fin N → EReal) : EReal :=
  ∑ k : Fin N, Ideal.div (Ideal.exp (s k - max ⊥ (rowMax s)))
      (0 + ∑ k' : Fin N, Ideal.exp (s k' - max ⊥ (rowMax s))) * v k

end Cert.Softmax

end
-- ==== Proof.Consts.lean ====
/- The float constants the two programs spell, as the extended reals their patterns denote:
   the kernel's score scale 0.125 is the real 1/8, the reference's divisor 8.0 the real 8,
   the pattern of minus infinity is the bottom element, and the zero pattern is 0. -/
import Idealize.ShloMosaic.PureOps.Ideal

noncomputable section

namespace Cert.Consts

open Idealize.ShloMosaic

/-- The zero pattern denotes 0. -/
theorem ofBits_zero : Ideal.ofBits .f32 0x00000000#32 = 0 := by
  simp [Ideal.ofBits, Ideal.ieee]

/-- The pattern 0xFF800000 (minus infinity) denotes the bottom of the extended reals. -/
theorem ofBits_neg_inf : Ideal.ofBits .f32 0xFF800000#32 = ⊥ := by
  simp [Ideal.ofBits, Ideal.ieee]

/-- The kernel's scale 0.125 denotes the real 1/8. -/
theorem ofBits_eighth : Ideal.ofBits .f32 0x3E000000#32 = ((1 / 8 : ℝ) : EReal) := by
  simp [Ideal.ofBits, Ideal.ieee, -EReal.coe_mul]; norm_num

/-- The reference's divisor 8.0 denotes the real 8. -/
theorem ofBits_eight : Ideal.ofBits .f32 0x41000000#32 = ((8 : ℝ) : EReal) := by
  simp [Ideal.ofBits, Ideal.ieee, -EReal.coe_mul]; norm_num

end Cert.Consts

end
-- ==== Proof.Payloads.lean ====
/- The kernel body's arithmetic, read one element at a time over the extended reals.

   With `x0` the query block (1024 rows of 64), `x1` the key block (2048 rows of 64), and the carried
   maximum, denominator and numerator of a row, one body execution computes the row's scores against the
   block's keys, `score r j = (∑ d, x0[r, d] * x1[j, d]) * 0.125`, and updates the three carried
   quantities by the blockwise softmax step (SoftmaxDefs: `mNew`, `lNew`, `aNew`), the values being
   the key block's own columns. -/
import proofs.«418998_j80711025426734_3_alg».proof.Proof.Gen.KernelIdeal.Skeleton
import proofs.«418998_j80711025426734_3_alg».proof.Proof.SoftmaxDefs
import proofs.«418998_j80711025426734_3_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Softmax

/-- The scaled score of query row `r` against key row `j` of the blocks. -/
def score (x0 : Vec Ideal S1x1024x64 .f32) (x1 : Vec Ideal S1x2048x64 .f32) (r : Fin 1024) (j : Fin 2048) : EReal :=
  (∑ dd : Fin 64, x0 (ix3 (0 : Fin 1) r dd) * x1 (ix3 (0 : Fin 1) j dd)) * Ideal.ofBits .f32 0x3E000000#32

/-! ## Two column layouts read at an index -/

section Layout
variable {α : Type}

/-- A column `[a, 1]` broadcast along a second axis to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The two products read at an index -/

theorem lhs_qk_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_qk_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_qk_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_qk_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- The first product, queries against keys, into a zero accumulator: at `(r, j)` the sum over the 64 features of
    query row `r` times key row `j`. -/
theorem qk_apply (a : FVec Ideal S1024x64 .bf16) (b : FVec Ideal S2048x64 .bf16) (r : Fin 1024) (j : Fin 2048) :
    matmul dot_S1024x64_S2048x64_S1024x2048_1_1_0_0_n_n none a b (constant (F := Ideal) S1024x2048 .f32 0x00000000#32) (ix2 r j)
      = ∑ dd : Fin 64, a (ix2 r dd) * b (ix2 j dd) := by
  simp only [matmul]
  rw [Ideal.matmul_constant_zero_apply, ← Equiv.sum_comp (contrEquiv1 dot_S1024x64_S2048x64_S1024x2048_1_1_0_0_n_n 64 rfl rfl).symm]
  refine Finset.sum_congr rfl fun k _ => ?_
  have hk := contrEquiv1_symm_val dot_S1024x64_S2048x64_S1024x2048_1_1_0_0_n_n 64 rfl rfl k
  have el : dot_S1024x64_S2048x64_S1024x2048_1_1_0_0_n_n.lhsIdx (ix2 r j) ((contrEquiv1 dot_S1024x64_S2048x64_S1024x2048_1_1_0_0_n_n 64 rfl rfl).symm k) = ix2 r k := funext fun c => Fin.ext (by
    match c with
    | ⟨0, _⟩ => exact lhs_qk_0 _ _
    | ⟨1, _⟩ => exact (lhs_qk_1 _ _).trans hk)
  have er : dot_S1024x64_S2048x64_S1024x2048_1_1_0_0_n_n.rhsIdx (ix2 r j) ((contrEquiv1 dot_S1024x64_S2048x64_S1024x2048_1_1_0_0_n_n 64 rfl rfl).symm k) = ix2 j k := funext fun c => Fin.ext (by
    match c with
    | ⟨0, _⟩ => exact rhs_qk_0 _ _
    | ⟨1, _⟩ => exact (rhs_qk_1 _ _).trans hk)
  rw [el, er]

theorem lhs_pv_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_pv_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_pv_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_pv_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The second product, weights against values, into a zero accumulator: at `(r, d)` the sum over the 2048 keys of
    the weight of key `j` in row `r` times value row `j` at column `d`. -/
theorem pv_apply (a : FVec Ideal S1024x2048 .bf16) (b : FVec Ideal S2048x64 .bf16) (r : Fin 1024) (d : Fin 64) :
    matmul dot_S1024x2048_S2048x64_S1024x64_1_0_0_1_n_n none a b (constant (F := Ideal) S1024x64 .f32 0x00000000#32) (ix2 r d)
      = ∑ j : Fin 2048, a (ix2 r j) * b (ix2 j d) := by
  simp only [matmul]
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 r d) ((contrEquiv1 dot_S1024x2048_S2048x64_S1024x64_1_0_0_1_n_n 2048 rfl rfl).symm k) = ix2 r k := funext fun c => Fin.ext (by
    match c with
    | ⟨0, _⟩ => exact lhs_pv_0 _ _
    | ⟨1, _⟩ => exact (lhs_pv_1 _ _).trans hk)
  have er : dot_S1024x2048_S2048x64_S1024x64_1_0_0_1_n_n.rhsIdx (ix2 r d) ((contrEquiv1 dot_S1024x2048_S2048x64_S1024x64_1_0_0_1_n_n 2048 rfl rfl).symm k) = ix2 k d := funext fun c => Fin.ext (by
    match c with
    | ⟨0, _⟩ => exact (rhs_pv_0 _ _).trans hk
    | ⟨1, _⟩ => exact rhs_pv_1 _ _)
  rw [el, er]

/-- The scaled scores: the first product times 0.125. -/
theorem pay8_apply (x0 : Vec Ideal S1x1024x64 .f32) (x1 : Vec Ideal S1x2048x64 .f32) (r : Fin 1024) (j : Fin 2048) :
    k0_pay8 (F := Ideal) x0 x1 (ix2 r j) = score x0 x1 r j := by
  unfold k0_pay8 k0_pay7 score
  refine (mulf_apply _ _ _).trans ?_
  refine congrArg (· * Ideal.ofBits .f32 0x3E000000#32) ?_
  refine (qk_apply _ _ r j).trans ?_
  refine Finset.sum_congr rfl fun dd _ => ?_
  exact congrArg₂ (· * ·) (shapeCast_1ab_ab_apply x0 _ r dd) (shapeCast_1ab_ab_apply x1 _ j dd)

/-! ## The two lane reductions read at a row -/

/-- The index `(r, k)` of the score block, as the reduction over the lanes inserts `k` into the row index `r`. -/
theorem lift_row (r : Fin 1024) (k : Fin 2048) :
    reduces_S1024x2048_S1024.lift (ix1 r) k = ix2 r k :=
  funext fun c => Fin.ext (by
    match c with
    | ⟨0, _⟩ => rfl
    | ⟨1, _⟩ => rfl)

/-- The lane maximum from minus infinity: at row `r` the largest entry of the row. -/
theorem rowMax_apply (src : FVec Ideal S1024x2048 .f32) (hφ : FKind.Formats .f32)
    (hacc : (0xFF800000#32 : BitVec 32) = FKind.maximumf.neutral .f32 hφ) (r : Fin 1024) :
    multiReduction (F := Ideal) .maximumf [1] S1024 src 0xFF800000#32 reduces_S1024x2048_S1024 hφ hacc (ix1 r)
      = rowMax (fun j : Fin 2048 => src (ix2 r j)) := by
  refine (Ideal.multiReduction_maximumf_single src _ reduces_S1024x2048_S1024 hφ hacc (ix1 r)).trans ?_
  show (Finset.univ : Finset (Fin 2048)).fold max (Ideal.ofBits .f32 0xFF800000#32)
      (fun k => src (reduces_S1024x2048_S1024.lift (ix1 r) k)) = rowMax (fun j : Fin 2048 => src (ix2 r j))
  unfold rowMax
  rw [Cert.Consts.ofBits_neg_inf]
  exact congrArg (Finset.univ.fold max ⊥) (funext fun k => congrArg src (lift_row r k))

/-- The lane sum from zero: at row `r` the sum of the row's entries. -/
theorem rowSum_apply (src : FVec Ideal S1024x2048 .f32) (hφ : FKind.Formats .f32)
    (hacc : (0x00000000#32 : BitVec 32) = FKind.add.neutral .f32 hφ) (r : Fin 1024) :
    multiReduction (F := Ideal) .add [1] S1024 src 0x00000000#32 reduces_S1024x2048_S1024 hφ hacc (ix1 r)
      = ∑ j : Fin 2048, src (ix2 r j) := by
  refine (Ideal.multiReduction_add_single src _ reduces_S1024x2048_S1024 hφ hacc (ix1 r)).trans ?_
  show ∑ k : Fin 2048, src (reduces_S1024x2048_S1024.lift (ix1 r) k) = _
  exact Finset.sum_congr rfl fun k _ => congrArg src (lift_row r k)

/-! ## The step's intermediate values -/

/-- The new running maximum. -/
theorem pay9_apply (x0 : Vec Ideal S1x1024x64 .f32) (x1 : Vec Ideal S1x2048x64 .f32) (mp : Vec Ideal S1024x1 .f32) (r : Fin 1024) :
    k0_pay9 (F := Ideal) x0 x1 mp (ix2 r (0 : Fin 1))
      = mNew (mp (ix2 r (0 : Fin 1))) (fun j : Fin 2048 => score x0 x1 r j) := by
  unfold k0_pay9 mNew
  refine (maximumf_apply _ _ _).trans ?_
  refine congrArg (max (mp (ix2 r (0 : Fin 1)))) ?_
  refine (shapeCast_a_a1_apply _ _ r (0 : Fin 1)).trans ?_
  refine (rowMax_apply _ _ _ r).trans ?_
  exact congrArg rowMax (funext fun j => pay8_apply x0 x1 r j)

/-- The rescaling factor of what was accumulated before. -/
theorem pay10_apply (x0 : Vec Ideal S1x1024x64 .f32) (x1 : Vec Ideal S1x2048x64 .f32) (mp : Vec Ideal S1024x1 .f32) (r : Fin 1024) :
    k0_pay10 (F := Ideal) x0 x1 mp (ix2 r (0 : Fin 1))
      = scale (mp (ix2 r (0 : Fin 1))) (fun j : Fin 2048 => score x0 x1 r j) := by
  unfold k0_pay10 scale
  show Ideal.exp (mp (ix2 r (0 : Fin 1)) - k0_pay9 (F := Ideal) x0 x1 mp (ix2 r (0 : Fin 1))) = _
  rw [pay9_apply]

/-- The block's weights. -/
theorem pay11_apply (x0 : Vec Ideal S1x1024x64 .f32) (x1 : Vec Ideal S1x2048x64 .f32) (mp : Vec Ideal S1024x1 .f32) (r : Fin 1024) (j : Fin 2048) :
    k0_pay11 (F := Ideal) x0 x1 mp (ix2 r j)
      = Ideal.exp (score x0 x1 r j - mNew (mp (ix2 r (0 : Fin 1))) (fun j : Fin 2048 => score x0 x1 r j)) := by
  unfold k0_pay11
  show Ideal.exp (k0_pay8 (F := Ideal) x0 x1 (ix2 r j)
      - broadcastTo S1024x2048 (k0_pay9 (F := Ideal) x0 x1 mp) broadcasts_S1024x1_S1024x2048 (ix2 r j)) = _
  rw [pay8_apply, broadcastTo_a1_ab_apply, pay9_apply]

/-! ## What one execution of the body stores -/

/-- The stored running maximum of row `r`. -/
theorem pay_m_apply (x0 : Vec Ideal S1x1024x64 .f32) (x1 : Vec Ideal S1x2048x64 .f32) (mp : Vec Ideal S1024x1 .f32) (r : Fin 1024) :
    k0_pay2 (F := Ideal) (k0_pay9 (F := Ideal) x0 x1 mp) (ix2 r (0 : Fin 1))
      = mNew (mp (ix2 r (0 : Fin 1))) (fun j : Fin 2048 => score x0 x1 r j) := by
  unfold k0_pay2
  rw [shapeCast_self]
  exact pay9_apply x0 x1 mp r

/-- The stored running denominator of row `r`. -/
theorem pay_l_apply (x0 : Vec Ideal S1x1024x64 .f32) (x1 : Vec Ideal S1x2048x64 .f32) (mp lp : Vec Ideal S1024x1 .f32) (r : Fin 1024) :
    k0_pay12 (F := Ideal) x0 x1 mp lp (ix2 r (0 : Fin 1))
      = lNew (mp (ix2 r (0 : Fin 1))) (lp (ix2 r (0 : Fin 1))) (fun j : Fin 2048 => score x0 x1 r j) := by
  unfold k0_pay12 lNew
  rw [shapeCast_self]
  refine (addf_apply _ _ _).trans ?_
  refine congrArg₂ (· + ·) ?_ ?_
  · refine (mulf_apply _ _ _).trans ?_
    rw [pay10_apply]
  · refine (shapeCast_a_a1_apply _ _ r (0 : Fin 1)).trans ?_
    refine (rowSum_apply _ _ _ r).trans ?_
    exact Finset.sum_congr rfl fun j _ => pay11_apply x0 x1 mp r j

/-- The stored running numerator of row `r`, column `d`. -/
theorem pay_a_apply (x0 : Vec Ideal S1x1024x64 .f32) (x1 : Vec Ideal S1x2048x64 .f32) (mp : Vec Ideal S1024x1 .f32)
    (ap : Vec Ideal S1024x64 .f32) (r : Fin 1024) (d : Fin 64) :
    k0_pay1 (F := Ideal) (k0_pay13 (F := Ideal) x0 x1 mp) (k0_pay14 (F := Ideal) x0 x1 mp ap) (ix2 r d)
      = aNew (mp (ix2 r (0 : Fin 1))) (ap (ix2 r d)) (fun j : Fin 2048 => score x0 x1 r j)
          (fun j : Fin 2048 => x1 (ix3 (0 : Fin 1) j d)) := by
  unfold k0_pay1 aNew
  rw [shapeCast_self]
  refine (addf_apply _ _ _).trans ?_
  refine congrArg₂ (· + ·) ?_ ?_
  · unfold k0_pay14
    refine (mulf_apply _ _ _).trans ?_
    rw [broadcastTo_a1_ab_apply, pay10_apply]
  · unfold k0_pay13 k0_pay7
    refine (pv_apply _ _ r d).trans ?_
    refine Finset.sum_congr rfl fun j _ => ?_
    exact congrArg₂ (· * ·) (pay11_apply x0 x1 mp r j) (shapeCast_1ab_ab_apply x1 _ j d)

/-- The output block's element: numerator over denominator. -/
theorem pay_o_apply (a : Vec Ideal S1024x64 .f32) (l : Vec Ideal S1024x1 .f32) (r : Fin 1024) (d : Fin 64) :
    k0_pay3 (F := Ideal) a l (ix3 (0 : Fin 1) r d) = Ideal.div (a (ix2 r d)) (l (ix2 r (0 : Fin 1))) := by
  unfold k0_pay3
  refine (shapeCast_ab_1ab_apply _ _ (0 : Fin 1) r d).trans ?_
  rw [divf_apply, broadcastTo_a1_ab_apply]

/-- The reset values: the maximum starts at minus infinity, -/
theorem pay_m0_apply (r : Fin 1024) : k0_pay4 (F := Ideal) (ix2 r (0 : Fin 1)) = ⊥ := by
  unfold k0_pay4
  rw [shapeCast_self]
  exact Cert.Consts.ofBits_neg_inf

/-- the denominator at zero, -/
theorem pay_l0_apply (r : Fin 1024) : k0_pay5 (F := Ideal) (ix2 r (0 : Fin 1)) = 0 := by
  unfold k0_pay5
  rw [shapeCast_self]
  exact Cert.Consts.ofBits_zero

/-- and the numerator at zero. -/
theorem pay_a0_apply (r : Fin 1024) (d : Fin 64) : k0_pay6 (F := Ideal) (ix2 r d) = 0 := by
  unfold k0_pay6
  rw [shapeCast_self]
  exact Cert.Consts.ofBits_zero

end Cert.KernelIdeal.Pay

end
-- ==== Proof.KernelValue.lean ====
/- What the output block holds after the second key block of a query tile, one element at a time.

   A query tile is processed at two consecutive grid points, an even one (first key block: the carried maximum,
   denominator and numerator are reset and updated once) and the odd one after it (second key block: they are
   updated again and the output block is numerator over denominator). So the output block's element (r, d) is the
   two-block online softmax form of SoftmaxDefs, over the scores of query row r against the two key blocks and
   the key blocks' column d. -/
import proofs.«418998_j80711025426734_3_alg».proof.Proof.Pieces
import proofs.«418998_j80711025426734_3_alg».proof.Proof.Blocks
import proofs.«418998_j80711025426734_3_alg».proof.Proof.Payloads

set_option maxRecDepth 16384

noncomputable section

namespace Cert.KernelIdeal.KValue

open Cert.KernelIdeal Cert.KernelIdeal.Gen Idealize.ShloMosaic Idealize.ShloMosaic.TcCoe Idealize.ShloMosaic.ValueIdx
open Cert.KernelIdeal.Blocks Cert.KernelIdeal.Pieces Cert.KernelIdeal.Pay Cert.Softmax
open Idealize.SL Idealize.SL.Sem

variable (m : (ℓ : Loc nD τ sig) → Buf (Elt Ideal) ℓ)

/-- The grid point before t. -/
def prev (t : Fin cfg0.N) : Fin cfg0.N := ⟨t.val - 1, Nat.lt_of_le_of_lt (Nat.sub_le _ _) t.isLt⟩

/-- After an even point the carried maximum is the first block's update from minus infinity, -/
theorem even_m (c : Dev nD) (t : Fin cfg0.N) (h0 : t.val % 2 = 0) (h1 : ¬t.val % 2 = 1) :
    (outsAt0 m c t.val t.isLt).2.1 = k0_pay2 (k0_pay9 (qblk m c t) (kblk m c t) (k0_pay4 (F := Ideal))) := by
  rw [outsAt0_A m c t h0 h1]; dsimp only
  exact sout_A_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

/-- the carried denominator its update from zero, -/
theorem even_l (c : Dev nD) (t : Fin cfg0.N) (h0 : t.val % 2 = 0) (h1 : ¬t.val % 2 = 1) :
    (outsAt0 m c t.val t.isLt).2.2.1 = k0_pay12 (qblk m c t) (kblk m c t) (k0_pay4 (F := Ideal)) (k0_pay5 (F := Ideal)) := by
  rw [outsAt0_A m c t h0 h1]; dsimp only
  exact sout_A_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

/-- and the carried numerator its update from zero. -/
theorem even_a (c : Dev nD) (t : Fin cfg0.N) (h0 : t.val % 2 = 0) (h1 : ¬t.val % 2 = 1) :
    (outsAt0 m c t.val t.isLt).2.2.2 = k0_pay1 (k0_pay13 (qblk m c t) (kblk m c t) (k0_pay4 (F := Ideal))) (k0_pay14 (qblk m c t) (kblk m c t) (k0_pay4 (F := Ideal)) (k0_pay6 (F := Ideal))) := by
  rw [outsAt0_A m c t h0 h1]; dsimp only
  exact sout_A_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

/-- After an odd point the output block is the second update's numerator over its denominator, the carried
    quantities being those the point before left. -/
theorem odd_out (c : Dev nD) (t : Fin cfg0.N) (h0 : ¬t.val % 2 = 0) (h1 : t.val % 2 = 1) :
    (outsAt0 m c t.val t.isLt).1
      = k0_pay3 (k0_pay1 (k0_pay13 (qblk m c t) (kblk m c t) (outsAt0 m c (prev t).val (prev t).isLt).2.1)
            (k0_pay14 (qblk m c t) (kblk m c t) (outsAt0 m c (prev t).val (prev t).isLt).2.1 (outsAt0 m c (prev t).val (prev t).isLt).2.2.2))
          (k0_pay12 (qblk m c t) (kblk m c t) (outsAt0 m c (prev t).val (prev t).isLt).2.1 (outsAt0 m c (prev t).val (prev t).isLt).2.2.1) := by
  rw [outsAt0_B m c t h0 h1]; dsimp only
  exact out_B_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2.1
    (outsAt0 m c (t.val - 1) (Nat.lt_of_le_of_lt (Nat.sub_le _ _) t.isLt)).2.2.1
    (outsAt0 m c (t.val - 1) (Nat.lt_of_le_of_lt (Nat.sub_le _ _) t.isLt)).2.2.2

/-- Element (r, d) of the output block after an odd point: the two-block online form over the scores of row r
    against the key block of the point before and the key block of this point. -/
theorem odd_out_apply (c : Dev nD) (t : Fin cfg0.N) (h0 : ¬t.val % 2 = 0) (h1 : t.val % 2 = 1) (r : Fin 1024) (d : Fin 64) :
    (outsAt0 m c t.val t.isLt).1 (ix3 (0 : Fin 1) r d)
      = online2 (fun j : Fin 2048 => score (qblk m c (prev t)) (kblk m c (prev t)) r j)
          (fun j : Fin 2048 => score (qblk m c t) (kblk m c t) r j)
          (fun j : Fin 2048 => kblk m c (prev t) (ix3 (0 : Fin 1) j d))
          (fun j : Fin 2048 => kblk m c t (ix3 (0 : Fin 1) j d)) := by
  have hp0 : (prev t).val % 2 = 0 := by show (t.val - 1) % 2 = 0; omega
  have hp1 : ¬(prev t).val % 2 = 1 := by show ¬(t.val - 1) % 2 = 1; omega
  rw [odd_out m c t h0 h1, pay_o_apply, pay_a_apply, pay_l_apply,
    even_m m c (prev t) hp0 hp1, even_l m c (prev t) hp0 hp1, even_a m c (prev t) hp0 hp1,
    pay_m_apply, pay_l_apply, pay_a_apply, pay_m0_apply, pay_l0_apply, pay_a0_apply]
  rfl

end Cert.KernelIdeal.KValue

end
-- ==== Proof.OnlineSoftmax.lean ====
/- The blockwise (online) form of a softmax-weighted sum over two blocks of keys equals the plain form,
   for real scores and values. -/
import proofs.«418998_j80711025426734_3_alg».proof.Proof.SoftmaxDefs

noncomputable section

namespace Cert.Softmax

open Idealize.ShloMosaic

/-- A finite sum of coerced reals is the coercion of the real sum. -/
private theorem coe_sum_real {ι : Type} (t : Finset ι) (f : ι → ℝ) :
    ∑ j ∈ t, ((f j : ℝ) : EReal) = ((∑ j ∈ t, f j : ℝ) : EReal) := by
  classical
  induction t using Finset.induction_on with
  | empty => simp
  | insert a t ha ih => rw [Finset.sum_insert ha, Finset.sum_insert ha, ih, EReal.coe_add]

/-- The larger of two coerced reals is the coercion of the larger real. -/
private theorem coe_max_real (a b : ℝ) : max (a : EReal) (b : EReal) = ((max a b : ℝ) : EReal) :=
  (EReal.coe_strictMono.monotone.map_max).symm

/-- The maximum of a nonempty family of reals is a real: it is at least the first entry, so not `⊥`,
    and every entry is below `⊤`, so it is not `⊤`. -/
private theorem rowMax_coe {n : ℕ} (hn : 0 < n) (f : Fin n → ℝ) :
    ∃ M : ℝ, rowMax (fun j : Fin n => ((f j : ℝ) : EReal)) = (M : EReal) := by
  have hbot : rowMax (fun j : Fin n => ((f j : ℝ) : EReal)) ≠ ⊥ := by
    have hle : ((f ⟨0, hn⟩ : ℝ) : EReal) ≤ rowMax (fun j : Fin n => ((f j : ℝ) : EReal)) := by
      unfold rowMax
      rw [Finset.le_fold_max]
      exact Or.inr ⟨⟨0, hn⟩, Finset.mem_univ _, le_rfl⟩
    intro h
    rw [h] at hle
    exact absurd hle (by simp)
  have htop : rowMax (fun j : Fin n => ((f j : ℝ) : EReal)) ≠ ⊤ := by
    have hlt : rowMax (fun j : Fin n => ((f j : ℝ) : EReal)) < ⊤ := by
      unfold rowMax
      rw [Finset.fold_max_lt]
      exact ⟨bot_lt_top, fun x _ => EReal.coe_lt_top _⟩
    exact hlt.ne
  exact ⟨(rowMax (fun j : Fin n => ((f j : ℝ) : EReal))).toReal, (EReal.coe_toReal htop hbot).symm⟩

/-- A block taken from the empty state: the old contributions vanish and the block's own sums remain. -/
private theorem lNew_bot {n : ℕ} (f : Fin n → ℝ) (m : ℝ)
    (hm : rowMax (fun j : Fin n => ((f j : ℝ) : EReal)) = (m : EReal)) :
    lNew ⊥ 0 (fun j : Fin n => ((f j : ℝ) : EReal)) = ((∑ j : Fin n, Real.exp (f j - m) : ℝ) : EReal) := by
  simp only [lNew, scale, mNew, hm, bot_le, max_eq_right, EReal.bot_sub, Ideal.exp_bot, mul_zero, zero_add,
    ← EReal.coe_sub, Ideal.exp_coe, coe_sum_real]

private theorem aNew_bot {n : ℕ} (f g : Fin n → ℝ) (m : ℝ)
    (hm : rowMax (fun j : Fin n => ((f j : ℝ) : EReal)) = (m : EReal)) :
    aNew ⊥ 0 (fun j : Fin n => ((f j : ℝ) : EReal)) (fun j : Fin n => ((g j : ℝ) : EReal))
      = ((∑ j : Fin n, Real.exp (f j - m) * g j : ℝ) : EReal) := by
  simp only [aNew, scale, mNew, hm, bot_le, max_eq_right, EReal.bot_sub, Ideal.exp_bot, mul_zero, zero_add,
    ← EReal.coe_sub, Ideal.exp_coe, ← EReal.coe_mul, coe_sum_real]

private theorem mNew_bot {n : ℕ} (f : Fin n → ℝ) (m : ℝ)
    (hm : rowMax (fun j : Fin n => ((f j : ℝ) : EReal)) = (m : EReal)) :
    mNew ⊥ (fun j : Fin n => ((f j : ℝ) : EReal)) = (m : EReal) := by
  simp only [mNew, hm, bot_le, max_eq_right]

/-- A block taken from a real state stays real. -/
private theorem lNew_coe {n : ℕ} (f : Fin n → ℝ) (m0 l m : ℝ)
    (hm : rowMax (fun j : Fin n => ((f j : ℝ) : EReal)) = (m : EReal)) :
    lNew (m0 : EReal) (l : EReal) (fun j : Fin n => ((f j : ℝ) : EReal))
      = ((Real.exp (m0 - max m0 m) * l + ∑ j : Fin n, Real.exp (f j - max m0 m) : ℝ) : EReal) := by
  simp only [lNew, scale, mNew, hm, coe_max_real, ← EReal.coe_sub, Ideal.exp_coe, ← EReal.coe_mul,
    coe_sum_real, ← EReal.coe_add]

private theorem aNew_coe {n : ℕ} (f g : Fin n → ℝ) (m0 a m : ℝ)
    (hm : rowMax (fun j : Fin n => ((f j : ℝ) : EReal)) = (m : EReal)) :
    aNew (m0 : EReal) (a : EReal) (fun j : Fin n => ((f j : ℝ) : EReal)) (fun j : Fin n => ((g j : ℝ) : EReal))
      = ((Real.exp (m0 - max m0 m) * a + ∑ j : Fin n, Real.exp (f j - max m0 m) * g j : ℝ) : EReal) := by
  simp only [aNew, scale, mNew, hm, coe_max_real, ← EReal.coe_sub, Ideal.exp_coe, ← EReal.coe_mul,
    coe_sum_real, ← EReal.coe_add]

/-- The plain form on real inputs is the coercion of the real softmax-weighted sum. -/
private theorem softmaxSum_coe {N : ℕ} (f g : Fin N → ℝ) (M : ℝ)
    (hM : rowMax (fun k : Fin N => ((f k : ℝ) : EReal)) = (M : EReal))
    (hZ : (∑ k : Fin N, Real.exp (f k - M)) ≠ 0) :
    softmaxSum (fun k : Fin N => ((f k : ℝ) : EReal)) (fun k : Fin N => ((g k : ℝ) : EReal))
      = ((∑ k : Fin N, Real.exp (f k - M) * (1 / ∑ k' : Fin N, Real.exp (f k' - M)) * g k : ℝ) : EReal) := by
  simp only [softmaxSum, hM, bot_le, max_eq_right, zero_add, ← EReal.coe_sub, Ideal.exp_coe, coe_sum_real]
  simp only [Ideal.div_coe hZ, ← EReal.coe_mul, coe_sum_real]

/-- The identity of real numbers behind the theorem: softmax weights do not depend on the subtracted
    constant, and the two blocks' sums add up to the sums over all keys. Here `c` stands for the running
    maximum after the second block and `M` for the constant subtracted in the plain form. -/
private theorem real_identity {n : ℕ} (s v : Fin (n + n) → ℝ) (m0 c M : ℝ)
    (hpos : 0 < ∑ k : Fin (n + n), Real.exp (s k)) :
    (Real.exp (m0 - c) * (∑ j : Fin n, Real.exp (s (Fin.castAdd n j) - m0) * v (Fin.castAdd n j))
        + ∑ j : Fin n, Real.exp (s (Fin.natAdd n j) - c) * v (Fin.natAdd n j))
      * (1 / (Real.exp (m0 - c) * (∑ j : Fin n, Real.exp (s (Fin.castAdd n j) - m0))
        + ∑ j : Fin n, Real.exp (s (Fin.natAdd n j) - c)))
    = ∑ k : Fin (n + n), Real.exp (s k - M) * (1 / ∑ k' : Fin (n + n), Real.exp (s k' - M)) * v k := by
  have e1 : ∀ x b : ℝ, Real.exp (x - b) = Real.exp (-b) * Real.exp x := fun x b => by
    rw [← Real.exp_add]; congr 1; ring
  have e0 : ∀ x : ℝ, Real.exp (m0 - c) * Real.exp (x - m0) = Real.exp (-c) * Real.exp x := fun x => by
    rw [← Real.exp_add, ← Real.exp_add]; congr 1; ring
  have hL : Real.exp (m0 - c) * (∑ j : Fin n, Real.exp (s (Fin.castAdd n j) - m0))
        + ∑ j : Fin n, Real.exp (s (Fin.natAdd n j) - c)
      = Real.exp (-c) * ∑ k : Fin (n + n), Real.exp (s k) := by
    rw [Fin.sum_univ_add, mul_add, Finset.mul_sum, Finset.mul_sum, Finset.mul_sum]
    congr 1 <;> refine Finset.sum_congr rfl fun j _ => ?_
    · exact e0 _
    · exact e1 _ _
  have hA : Real.exp (m0 - c) * (∑ j : Fin n, Real.exp (s (Fin.castAdd n j) - m0) * v (Fin.castAdd n j))
        + ∑ j : Fin n, Real.exp (s (Fin.natAdd n j) - c) * v (Fin.natAdd n j)
      = Real.exp (-c) * ∑ k : Fin (n + n), Real.exp (s k) * v k := by
    rw [Fin.sum_univ_add, mul_add, Finset.mul_sum, Finset.mul_sum, Finset.mul_sum]
    congr 1 <;> refine Finset.sum_congr rfl fun j _ => ?_
    · rw [← mul_assoc, e0, mul_assoc]
    · rw [e1, mul_assoc]
  have hZ : ∑ k' : Fin (n + n), Real.exp (s k' - M) = Real.exp (-M) * ∑ k : Fin (n + n), Real.exp (s k) := by
    rw [Finset.mul_sum]; exact Finset.sum_congr rfl fun j _ => e1 _ _
  rw [hL, hA, hZ, Finset.mul_sum, Finset.sum_mul]
  refine Finset.sum_congr rfl fun k _ => ?_
  rw [e1 (s k) M]
  have h1 : Real.exp (-c) ≠ 0 := (Real.exp_pos _).ne'
  have h2 : Real.exp (-M) ≠ 0 := (Real.exp_pos _).ne'
  have h3 := hpos.ne'
  field_simp

/-- For real scores `s` and values `v` over `n + n` keys (`n > 0`), carrying maximum, denominator and numerator
    through the first `n` keys and then the last `n` gives the plain softmax-weighted sum over all of them. -/
theorem online2_eq_softmaxSum {n : ℕ} (hn : 0 < n) (s v : Fin (n + n) → ℝ) :
    online2 (fun j : Fin n => ((s (Fin.castAdd n j) : ℝ) : EReal)) (fun j : Fin n => ((s (Fin.natAdd n j) : ℝ) : EReal))
        (fun j : Fin n => ((v (Fin.castAdd n j) : ℝ) : EReal)) (fun j : Fin n => ((v (Fin.natAdd n j) : ℝ) : EReal))
      = softmaxSum (fun k : Fin (n + n) => ((s k : ℝ) : EReal)) (fun k : Fin (n + n) => ((v k : ℝ) : EReal)) := by
  obtain ⟨m0, hm0⟩ := rowMax_coe hn (fun j : Fin n => s (Fin.castAdd n j))
  obtain ⟨m1, hm1⟩ := rowMax_coe hn (fun j : Fin n => s (Fin.natAdd n j))
  obtain ⟨M, hM⟩ := rowMax_coe (Nat.add_pos_left hn n) s
  have hpos : 0 < ∑ k : Fin (n + n), Real.exp (s k) :=
    Finset.sum_pos (fun k _ => Real.exp_pos _) ⟨⟨0, Nat.add_pos_left hn n⟩, Finset.mem_univ _⟩
  have hZpos : 0 < ∑ k : Fin (n + n), Real.exp (s k - M) :=
    Finset.sum_pos (fun k _ => Real.exp_pos _) ⟨⟨0, Nat.add_pos_left hn n⟩, Finset.mem_univ _⟩
  have hLpos : 0 < Real.exp (m0 - max m0 m1) * (∑ j : Fin n, Real.exp (s (Fin.castAdd n j) - m0))
        + ∑ j : Fin n, Real.exp (s (Fin.natAdd n j) - max m0 m1) :=
    add_pos_of_nonneg_of_pos
      (mul_nonneg (Real.exp_pos _).le (Finset.sum_nonneg fun j _ => (Real.exp_pos _).le))
      (Finset.sum_pos (fun j _ => Real.exp_pos _) ⟨⟨0, hn⟩, Finset.mem_univ _⟩)
  rw [softmaxSum_coe s v M hM hZpos.ne']
  unfold online2
  rw [mNew_bot _ m0 hm0, lNew_bot _ m0 hm0, aNew_bot _ _ m0 hm0, lNew_coe _ m0 _ m1 hm1, aNew_coe _ _ m0 _ m1 hm1,
    Ideal.div_coe hLpos.ne', ← EReal.coe_mul, EReal.coe_eq_coe_iff]
  exact real_identity s v m0 (max m0 m1) M hpos

end Cert.Softmax

end
-- ==== Proof.KernelFinal.lean ====
/- The kernel's result array: every element is the plain softmax-weighted sum of the reference.

   `attn Q K` is the specification, element by element: element (b, q, d) is the softmax over the 4096 keys of batch b
   of the scores `(∑ dd, Q[b,q,dd] * K[b,k,dd]) / 8`, weighting the keys' column d. For real (finite) arguments the
   output block written back after the second key block of a query tile is that tile of `attn`: the kernel's scores
   `(∑ …) * 0.125` are the reference's `(∑ …) / 8`, the two key blocks are the first and the last 2048 keys, and the
   two-block online form equals the plain form (OnlineSoftmax). The written-back blocks tile the result array. -/
import proofs.«418998_j80711025426734_3_alg».proof.Proof.KernelValue
import proofs.«418998_j80711025426734_3_alg».proof.Proof.OnlineSoftmax
import proofs.«418998_j80711025426734_3_alg».proof.Proof.Consts

set_option maxRecDepth 16384

noncomputable section

namespace Cert.Spec

open Idealize.ShloMosaic Idealize.ShloMosaic.ValueIdx Cert.Softmax

/-- Softmax attention with the keys as values, element by element. -/
def attn (Q K : (⟨3, ![4, 4096, 64]⟩ : Shape).Idx → EReal) : (⟨3, ![4, 4096, 64]⟩ : Shape).Idx → EReal := fun i =>
  softmaxSum (fun k : Fin 4096 => Ideal.div (∑ dd : Fin 64, Q (ix3 (i 0) (i 1) dd) * K (ix3 (i 0) k dd)) (Ideal.ofBits .f32 0x41000000#32))
    (fun k : Fin 4096 => K (ix3 (i 0) k (i 2)))

/-- A finite sum of reals, coerced termwise, is the coercion of the sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Spec

namespace Cert.KernelIdeal.Final

open Cert.KernelIdeal Cert.KernelIdeal.Gen Idealize.ShloMosaic Idealize.ShloMosaic.TcCoe Idealize.ShloMosaic.ValueIdx
open Cert.KernelIdeal.Blocks Cert.KernelIdeal.Pay Cert.KernelIdeal.KValue Cert.Softmax Cert.Spec
open Idealize.SL Idealize.SL.Sem

variable (m : (ℓ : Loc nD τ sig) → Buf (Elt Ideal) ℓ)

/-- Element (r, d) of the output block after the odd point t is element (b, q, d) of `attn`, where b is the point's
    batch and q = 1024 * (its query tile) + r, when the two argument arrays hold reals. -/
theorem elem_eq (c : Dev nD) (hQ : ∀ i, ∃ x : ℝ, qarr m c i = (x : EReal)) (hK : ∀ i, ∃ x : ℝ, karr m c i = (x : EReal))
    (t : Fin cfg0.N) (h1 : t.val % 2 = 1) (r : Fin 1024) (d : Fin 64) (b : Fin 4) (q : Fin 4096)
    (hb : b.val = t.val / 8) (hq : q.val = t.val / 2 % 4 * 1024 + r.val) :
    (outsAt0 m c t.val t.isLt).1 (ix3 (0 : Fin 1) r d) = attn (qarr m c) (karr m c) (ix3 b q d) := by
  have h0 : ¬t.val % 2 = 0 := by omega
  have hN : t.val < 32 := lt_of_lt_of_eq t.isLt N32
  choose qf hqf using hQ
  choose kf hkf using hK
  -- the real scores of row q against every key of batch b, and the keys' column d
  let σ : Fin 4096 → ℝ := fun k => (∑ dd : Fin 64, qf (ix3 b q dd) * kf (ix3 b k dd)) * (1 / 8)
  let ν : Fin 4096 → ℝ := fun k => kf (ix3 b k d)
  have hpv : (prev t).val = t.val - 1 := rfl
  have sc : ∀ (t' : Fin cfg0.N) (j : Fin 2048) (k : Fin 4096), t'.val / 8 = t.val / 8 → t'.val / 2 % 4 = t.val / 2 % 4 →
      k.val = t'.val % 2 * 2048 + j.val → score (qblk m c t') (kblk m c t') r j = ((σ k : ℝ) : EReal) := by
    intro t' j k e8 e4 ek
    unfold score
    rw [Cert.Consts.ofBits_eighth]
    have : ∀ dd : Fin 64, qblk m c t' (ix3 (0 : Fin 1) r dd) * kblk m c t' (ix3 (0 : Fin 1) j dd) = ((qf (ix3 b q dd) * kf (ix3 b k dd) : ℝ) : EReal) := by
      intro dd
      rw [qblk_apply m c t' r dd b q (by omega) (by omega), kblk_apply m c t' j dd b k (by omega) ek, hqf, hkf, EReal.coe_mul]
    rw [Finset.sum_congr rfl (fun dd _ => this dd), coe_sum, ← EReal.coe_mul]
  have vl : ∀ (t' : Fin cfg0.N) (j : Fin 2048) (k : Fin 4096), t'.val / 8 = t.val / 8 →
      k.val = t'.val % 2 * 2048 + j.val → kblk m c t' (ix3 (0 : Fin 1) j d) = ((ν k : ℝ) : EReal) := by
    intro t' j k e8 ek
    rw [kblk_apply m c t' j d b k (by omega) ek, hkf]
  rw [odd_out_apply m c t h0 h1 r d]
  have e0 : (fun j : Fin 2048 => score (qblk m c (prev t)) (kblk m c (prev t)) r j) = fun j : Fin 2048 => ((σ (Fin.castAdd 2048 j) : ℝ) : EReal) :=
    funext fun j => sc (prev t) j (Fin.castAdd 2048 j) (by omega) (by omega) (by show j.val = _; omega)
  have e1 : (fun j : Fin 2048 => score (qblk m c t) (kblk m c t) r j) = fun j : Fin 2048 => ((σ (Fin.natAdd 2048 j) : ℝ) : EReal) :=
    funext fun j => sc t j (Fin.natAdd 2048 j) rfl rfl (by show 2048 + j.val = _; omega)
  have e2 : (fun j : Fin 2048 => kblk m c (prev t) (ix3 (0 : Fin 1) j d)) = fun j : Fin 2048 => ((ν (Fin.castAdd 2048 j) : ℝ) : EReal) :=
    funext fun j => vl (prev t) j (Fin.castAdd 2048 j) (by omega) (by show j.val = _; omega)
  have e3 : (fun j : Fin 2048 => kblk m c t (ix3 (0 : Fin 1) j d)) = fun j : Fin 2048 => ((ν (Fin.natAdd 2048 j) : ℝ) : EReal) :=
    funext fun j => vl t j (Fin.natAdd 2048 j) rfl (by show 2048 + j.val = _; omega)
  rw [e0, e1, e2, e3]
  have e4 : attn (qarr m c) (karr m c) (ix3 b q d) = softmaxSum (fun k : Fin 4096 => ((σ k : ℝ) : EReal)) (fun k : Fin 4096 => ((ν k : ℝ) : EReal)) := by
    unfold attn
    show softmaxSum (fun k : Fin 4096 => Ideal.div (∑ dd : Fin 64, qarr m c (ix3 b q dd) * karr m c (ix3 b k dd)) (Ideal.ofBits .f32 0x41000000#32))
        (fun k : Fin 4096 => karr m c (ix3 b k d)) = _
    congr 1
    · funext k
      rw [Cert.Consts.ofBits_eight, Ideal.div_coe (by norm_num : (8 : ℝ) ≠ 0)]
      have : ∀ dd : Fin 64, qarr m c (ix3 b q dd) * karr m c (ix3 b k dd) = ((qf (ix3 b q dd) * kf (ix3 b k dd) : ℝ) : EReal) := by
        intro dd; rw [hqf, hkf, EReal.coe_mul]
      rw [Finset.sum_congr rfl (fun dd _ => this dd), coe_sum, ← EReal.coe_mul]
    · funext k; exact hkf _
  rw [e4]
  exact online2_eq_softmaxSum (n := 2048) (by norm_num) σ ν

end Cert.KernelIdeal.Final

end
-- ==== Proof.KernelArray.lean ====
/- The result array after the run: the written-back blocks tile it, and each is a tile of `attn`.

   The output window writes its block back at the odd grid points only; the block of point t is rows
   [1024 * (t / 2 % 4), +1024) of batch t / 8. Every (b, q, d) lies in the block of the odd point
   8 * b + 2 * (q / 1024) + 1. -/
import proofs.«418998_j80711025426734_3_alg».proof.Proof.KernelFinal

set_option maxRecDepth 16384

noncomputable section

namespace Cert.KernelIdeal.Final

open Cert.KernelIdeal Cert.KernelIdeal.Gen Cert.KernelIdeal.Value Idealize.ShloMosaic Idealize.ShloMosaic.TcCoe Idealize.ShloMosaic.ValueIdx
open Cert.KernelIdeal.Blocks Cert.Spec
open Idealize.SL Idealize.SL.Sem

variable (m : (ℓ : Loc nD τ sig) → Buf (Elt Ideal) ℓ) (ρ : Dev nD → PrngReg)

/-- What an odd point writes back is its block of `attn` of the argument arrays. -/
theorem flushed_eq (c : Dev nD) (hQ : ∀ i, ∃ x : ℝ, qarr m c i = (x : EReal)) (hK : ∀ i, ∃ x : ℝ, karr m c i = (x : EReal))
    (t : Fin cfg0.N) (hf : (cfg0.win 2).flush t = true) :
    (dats m 0 c).flushed 2 t = ((cfg0.win 2).blk t).view.read (Elt Ideal) (attn (qarr m c) (karr m c)) := by
  have h1 : t.val % 2 = 1 := (flush0_2 t).mp hf
  have hN : t.val < 32 := lt_of_lt_of_eq t.isLt N32
  obtain ⟨-, -, -, -, -, -, e0, e1, e2⟩ := idx_facts t
  rw [flushed2 m c t]
  funext y
  show (outsAt0 m c t.val t.isLt).1 y = attn (qarr m c) (karr m c) (((cfg0.win 2).blk t).view.emb y)
  have hy1 : (y 1).val < 1024 := (y 1).isLt
  have hy : (y : S1x1024x64.Idx) = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  have he : ((cfg0.win 2).blk t).view.emb y
      = ix3 (⟨t.val / 8, by omega⟩ : Fin 4) (⟨t.val / 2 % 4 * 1024 + (y 1).val, by omega⟩ : Fin 4096) (y 2) := by
    funext a; apply Fin.ext
    match a with
    | ⟨0, _⟩ => show win0_2.index t (0 : Fin 3) * 1 + 1 * (y 0).val = t.val / 8; have : (y 0).val < 1 := (y 0).isLt; omega
    | ⟨1, _⟩ => show win0_2.index t (1 : Fin 3) * 1024 + 1 * (y 1).val = t.val / 2 % 4 * 1024 + (y 1).val; omega
    | ⟨2, _⟩ => show win0_2.index t (2 : Fin 3) * 64 + 1 * (y 2).val = (y 2).val; omega
  rw [he]
  refine (congrArg (outsAt0 m c t.val t.isLt).1 hy).trans ?_
  exact elem_eq m c hQ hK t h1 (y 1) (y 2) _ _ rfl rfl

/-- An index of the result is in point t's block iff each coordinate is in the block's range on its axis. -/
theorem mem_blk (t : Fin cfg0.N) (i : S4x4096x64.Idx) :
    i ∈ ((cfg0.win 2).blk t).view.set ↔ ∀ a : Fin 3, win0_2.index t a * S1x1024x64.size a ≤ (i a).val ∧ (i a).val < win0_2.index t a * S1x1024x64.size a + S1x1024x64.size a := by
  show i ∈ ((View.whole main_v0).slice (win0_2.rect t)).set ↔ _
  rw [View.set_slice_whole, Rect.mem_set_unit]
  exact Iff.rfl

/-- Every index of the result is in the block of some odd point. -/
theorem cover (i : S4x4096x64.Idx) : ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 64 := (i 2).isLt
  let t : Fin cfg0.N := ⟨8 * (i 0).val + 2 * ((i 1).val / 1024) + 1, by rw [N32]; omega⟩
  have htv : t.val = 8 * (i 0).val + 2 * ((i 1).val / 1024) + 1 := rfl
  obtain ⟨-, -, -, -, -, -, e0, e1, e2⟩ := idx_facts t
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-- The result array after the run is `attn` of the argument arrays. -/
theorem final (c : Dev nD) (hQ : ∀ i, ∃ x : ℝ, qarr m c i = (x : EReal)) (hK : ∀ i, ∃ x : ℝ, karr m c i = (x : EReal)) :
    (dats m 0 c).arrAt 2 cfg0.N = attn (qarr m c) (karr m c) :=
  (dats m 0 c).arrAt_eq_of_cover 2 (attn (qarr m c) (karr m c)) (fun t hf => flushed_eq m c hQ hK t hf) cover

end Cert.KernelIdeal.Final

end
-- ==== Proof.RefValue.lean ====
/- The reference's result, read one element at a time: element (b, q, d) is the plain softmax-weighted sum
   (SoftmaxDefs: `softmaxSum`) of row q's scores against all 4096 keys of batch b, `(∑ dd, X0[b,q,dd] * X1[b,k,dd]) / 8`,
   with values the keys' column d. -/
import proofs.«418998_j80711025426734_3_alg».proof.Proof.Gen.ReferenceIdeal.Read
import proofs.«418998_j80711025426734_3_alg».proof.Proof.SoftmaxDefs
import proofs.«418998_j80711025426734_3_alg».proof.Proof.Consts
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Softmax

/-! ## The index maps of the layout operations, at coordinates -/

theorem lidx_v14_ix (b : Fin 4) (q : Fin 4096) (d : Fin 64) (k : Fin 4096) :
    lidx_main_v14 (ix3 b q d) k = ix3 b q k :=
  funext fun a => Fin.ext (by match a with | ⟨0, _⟩ => rfl | ⟨1, _⟩ => rfl | ⟨2, _⟩ => rfl)

theorem ridx_v14_ix (b : Fin 4) (q : Fin 4096) (d : Fin 64) (k : Fin 4096) :
    ridx_main_v14 (ix3 b q d) k = ix3 b k d :=
  funext fun a => Fin.ext (by match a with | ⟨0, _⟩ => rfl | ⟨1, _⟩ => rfl | ⟨2, _⟩ => rfl)

theorem idx_v12_ix (b : Fin 4) (q k : Fin 4096) :
    idx_main_v12 (ix3 b q k) = ix3 b q (0 : Fin 1) :=
  funext fun a => Fin.ext (by match a with | ⟨0, _⟩ => rfl | ⟨1, _⟩ => rfl | ⟨2, _⟩ => rfl)

theorem idx_v11_ix (b : Fin 4) (q : Fin 4096) :
    idx_main_v11 (ix3 b q (0 : Fin 1)) = ix2 b q :=
  funext fun a => Fin.ext (by match a with | ⟨0, _⟩ => rfl | ⟨1, _⟩ => rfl)

theorem idx_v10_ix (b : Fin 4) (q k : Fin 4096) :
    idx_main_v10 (ix2 b q) k = ix3 b q k :=
  funext fun a => Fin.ext (by match a with | ⟨0, _⟩ => rfl | ⟨1, _⟩ => rfl | ⟨2, _⟩ => rfl)

theorem idx_v7_ix (b : Fin 4) (q k : Fin 4096) :
    idx_main_v7 (ix3 b q k) = ix3 b q (0 : Fin 1) :=
  funext fun a => Fin.ext (by match a with | ⟨0, _⟩ => rfl | ⟨1, _⟩ => rfl | ⟨2, _⟩ => rfl)

theorem idx_v6_ix (b : Fin 4) (q : Fin 4096) :
    idx_main_v6 (ix3 b q (0 : Fin 1)) = ix2 b q :=
  funext fun a => Fin.ext (by match a with | ⟨0, _⟩ => rfl | ⟨1, _⟩ => rfl)

theorem lidx_v0_ix (b : Fin 4) (q k : Fin 4096) (dd : Fin 64) :
    lidx_main_v0 (ix3 b q k) dd = ix3 b q dd :=
  funext fun a => Fin.ext (by match a with | ⟨0, _⟩ => rfl | ⟨1, _⟩ => rfl | ⟨2, _⟩ => rfl)

theorem ridx_v0_ix (b : Fin 4) (q k : Fin 4096) (dd : Fin 64) :
    ridx_main_v0 (ix3 b q k) dd = ix3 b k dd :=
  funext fun a => Fin.ext (by match a with | ⟨0, _⟩ => rfl | ⟨1, _⟩ => rfl | ⟨2, _⟩ => rfl)

/-! ## The stages, at coordinates -/

/-- Row q's score against key k of batch b: the dot product of the two rows over the 64 features, divided by 8. -/
abbrev refScore (X0 X1 : (⟨S4x4096x64, .f32⟩ : BufTy).Contents (Elt Ideal)) (b : Fin 4) (q : Fin 4096) : Fin 4096 → EReal :=
  fun k => Ideal.div (∑ dd : Fin 64, X0 (ix3 b q dd) * X1 (ix3 b k dd)) (Ideal.ofBits .f32 0x41000000#32)

/-- The scaled scores. -/
theorem v2_apply (X0 X1 : (⟨S4x4096x64, .f32⟩ : BufTy).Contents (Elt Ideal)) (b : Fin 4) (q k : Fin 4096) :
    val_main_v2 (F := Ideal) X0 X1 (ix3 b q k) = refScore X0 X1 b q k := by
  rw [val_main_v2_apply, val_main_v0_apply, val_main_v1_apply, val_main_cst_apply]
  simp only [lidx_v0_ix, ridx_v0_ix, Ideal.hostDivf_def, Ideal.ofBits_def]

/-- The row maximum: the fold of `max` from the bottom element over the keys. -/
theorem v3_apply (X0 X1 : (⟨S4x4096x64, .f32⟩ : BufTy).Contents (Elt Ideal)) (b : Fin 4) (q : Fin 4096) :
    val_main_v3 (F := Ideal) X0 X1 (ix2 b q) = rowMax (refScore X0 X1 b q) := by
  have h : S4x4096x4096.Reduces [2] S4x4096 := by decide
  have hl : ∀ k : Fin 4096, h.lift (ix2 b q) k = ix3 b q k := fun k =>
    funext fun a => Fin.ext (by match a with | ⟨0, _⟩ => rfl | ⟨1, _⟩ => rfl | ⟨2, _⟩ => rfl)
  unfold val_main_v3
  refine (Host.reduce_eq_fold_single _ _ _ reducesTo_S4x4096x4096_S4x4096_d2 h h_S_ (ix2 b q)).trans ?_
  rw [val_main_cst_0_apply, Ideal.ofBits_def, Cert.Consts.ofBits_neg_inf]
  unfold rowMax
  refine congrArg (fun f : Fin 4096 → EReal => (Finset.univ : Finset (Fin 4096)).fold max ⊥ f) (funext fun k : Fin 4096 => ?_)
  show val_main_v2 (F := Ideal) X0 X1 (h.lift (ix2 b q) k) = _
  rw [hl k]
  exact v2_apply X0 X1 b q k

/-- The maximum the reference subtracts: the row maximum, joined with the bottom element it starts from. -/
theorem v5_apply (X0 X1 : (⟨S4x4096x64, .f32⟩ : BufTy).Contents (Elt Ideal)) (b : Fin 4) (q : Fin 4096) :
    val_main_v5 (F := Ideal) X0 X1 (ix2 b q) = max ⊥ (rowMax (refScore X0 X1 b q)) := by
  rw [val_main_v5_apply, val_main_v4_apply, val_main_cst_1_apply, v3_apply, Ideal.maximumf_def, Ideal.ofBits_def,
    Cert.Consts.ofBits_neg_inf]

/-- The weights: the exponential of a score less the row's maximum. -/
theorem v9_apply (X0 X1 : (⟨S4x4096x64, .f32⟩ : BufTy).Contents (Elt Ideal)) (b : Fin 4) (q k : Fin 4096) :
    val_main_v9 (F := Ideal) X0 X1 (ix3 b q k)
      = Ideal.exp (refScore X0 X1 b q k - max ⊥ (rowMax (refScore X0 X1 b q))) := by
  rw [val_main_v9_apply, val_main_v8_apply, v2_apply, val_main_v7_apply, idx_v7_ix, val_main_v6_apply, idx_v6_ix, v5_apply,
    Ideal.subf_def, Ideal.hostUnary_exp_def]

/-- The denominator: zero plus the sum of the row's weights. -/
theorem v10_apply (X0 X1 : (⟨S4x4096x64, .f32⟩ : BufTy).Contents (Elt Ideal)) (b : Fin 4) (q : Fin 4096) :
    val_main_v10 (F := Ideal) X0 X1 (ix2 b q)
      = 0 + ∑ k' : Fin 4096, Ideal.exp (refScore X0 X1 b q k' - max ⊥ (rowMax (refScore X0 X1 b q))) := by
  rw [val_main_v10_apply, val_main_cst_2_apply, Ideal.ofBits_def, Cert.Consts.ofBits_zero]
  simp only [idx_v10_ix, v9_apply]

/-- The normalized weights. -/
theorem v13_apply (X0 X1 : (⟨S4x4096x64, .f32⟩ : BufTy).Contents (Elt Ideal)) (b : Fin 4) (q k : Fin 4096) :
    val_main_v13 (F := Ideal) X0 X1 (ix3 b q k)
      = Ideal.div (Ideal.exp (refScore X0 X1 b q k - max ⊥ (rowMax (refScore X0 X1 b q))))
          (0 + ∑ k' : Fin 4096, Ideal.exp (refScore X0 X1 b q k' - max ⊥ (rowMax (refScore X0 X1 b q)))) := by
  rw [val_main_v13_apply, v9_apply, val_main_v12_apply, idx_v12_ix, val_main_v11_apply, idx_v11_ix, v10_apply,
    Ideal.hostDivf_def]

/-- The reference's result at (b, q, d): the normalized weights of row q against the keys' column d. -/
theorem ref_apply (X0 X1 : (⟨S4x4096x64, .f32⟩ : BufTy).Contents (Elt Ideal)) (b : Fin 4) (q : Fin 4096) (d : Fin 64) :
    val_main_v14 (F := Ideal) X0 X1 (ix3 b q d)
      = softmaxSum (fun k : Fin 4096 => Ideal.div (∑ dd : Fin 64, X0 (ix3 b q dd) * X1 (ix3 b k dd)) (Ideal.ofBits .f32 0x41000000#32))
          (fun k : Fin 4096 => X1 (ix3 b k d)) := by
  rw [val_main_v14_apply]
  simp only [lidx_v14_ix, ridx_v14_ix, v13_apply]
  rfl

end Cert.ReferenceIdeal.RefValue

end
-- ==== Proof.Finite.lean ====
/- The precondition read back: when `finite_inputs` holds of three arrays, every element of the first two
   is a real number (neither infinity). -/
import proofs.«418998_j80711025426734_3_alg».proof.Pre_finite_inputs
import proofs.«418998_j80711025426734_3_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx Cert.Pre_finite_inputs

/-- The f32 pattern 0x7F800000 (sign 0, exponent all ones, significand 0) denotes +∞. -/
theorem inf_bits : Ideal.ofBits .f32 0x7F800000#32 = (⊤ : EReal) := by
  simp [Ideal.ofBits, Ideal.ieee]

/-- An extended real whose absolute value `max a (-a)` is strictly below +∞ is a real number:
    at -∞ and at +∞ the absolute value is +∞ itself, which is not below +∞. -/
theorem real_of_abs_lt_top (a : EReal)
    (h : Ideal.cmp .olt (max a (-a)) (Ideal.ofBits .f32 0x7F800000#32) = 1#1) : ∃ r : ℝ, a = (r : EReal) := by
  rw [inf_bits] at h
  induction a using EReal.rec with
  | bot => simp [Ideal.cmp] at h
  | top => simp [Ideal.cmp] at h
  | coe r => exact ⟨r, rfl⟩

/-- The precondition is the conjunction of three `all(|x| < +∞)`; each `all` is a reduction by `and` over every
    axis into a result of one index, so its being 1 says the comparison holds at every element. -/
theorem real_of_pre (x0 x1 x2 : FVec Ideal S4x4096x64 .f32)
    (h : Cert.Pre_finite_inputs.fn (F := Ideal) x0 x1 x2 = (fun _ => 1#1)) :
    (∀ i, ∃ r : ℝ, x0 i = (r : EReal)) ∧ (∀ i, ∃ r : ℝ, x1 i = (r : EReal)) := by
  -- a shape of rank 0 has one index
  haveI : Subsingleton S_.Idx := ⟨fun a b => funext fun d => d.elim0⟩
  have h0 := congrFun h ValueIdx.ix0
  dsimp only [Cert.Pre_finite_inputs.fn] at h0
  obtain ⟨h01, -⟩ := IntOp.andi_eq_one.1 h0
  obtain ⟨ha, hb⟩ := IntOp.andi_eq_one.1 h01
  refine ⟨fun i => ?_, fun i => ?_⟩
  · exact real_of_abs_lt_top _ (Host.reduce_andi_all _ _ _ _ _ ha i)
  · exact real_of_abs_lt_top _ (Host.reduce_andi_all _ _ _ _ _ hb i)

end Cert.Finite

end
-- ==== Proof.lean ====
/- Softmax attention with the keys as values (out = softmax(Q Kᵀ / 8) K over f32[4, 4096, 64]): a kernel that walks the
   4096 keys of a query tile in two blocks of 2048 with an online softmax — a running row maximum, a running
   denominator and a running numerator, rescaled by exp(old maximum - new maximum) at each block — against the
   plain form that takes the row maximum over all keys first.

   Over the extended reals, with real (finite) inputs, the two agree element by element: the kernel's scale 0.125 is
   the reference's division by 8; exp(m₁ - M) · exp(s - m₁) = exp(s - M) turns the first block's weights, taken
   against its own maximum m₁, into weights against the overall maximum M; so the kernel's final denominator is the
   reference's Z = Σ exp(s - M) and its final numerator Σ exp(s - M) · K, and (Σ e · K) / Z = Σ (e / Z) · K since Z is a
   positive real. Finiteness is used throughout (the inputs' precondition): with an infinite score the two forms differ.

   Modules: SoftmaxDefs (the two forms), OnlineSoftmax (their equality for real scores), Consts (the float constants),
   Finite (the precondition read back), Payloads (the kernel body's arithmetic at an element), Pieces (what one body
   execution leaves in each buffer), Blocks (where the blocks sit in the arrays), KernelValue (the output block after a
   query tile's second key block), KernelFinal and KernelArray (the kernel's result array is `attn`), RefValue (the
   reference's result is `attn`). The three frames are the generated ones; the ideal pass rewrote nothing, so
   `preserves` is trivial. -/
import proofs.«418998_j80711025426734_3_alg».proof.Defs
import proofs.«418998_j80711025426734_3_alg».proof.Proof.Gen.Kernel
import proofs.«418998_j80711025426734_3_alg».proof.Proof.Gen.Kernel.Skeleton
import proofs.«418998_j80711025426734_3_alg».proof.Proof.Gen.Kernel.Launch
import proofs.«418998_j80711025426734_3_alg».proof.Proof.Gen.Kernel.Points
import proofs.«418998_j80711025426734_3_alg».proof.Proof.Gen.Kernel.Frame
import proofs.«418998_j80711025426734_3_alg».proof.Proof.Gen.KernelIdeal
import proofs.«418998_j80711025426734_3_alg».proof.Proof.Gen.KernelIdeal.Skeleton
import proofs.«418998_j80711025426734_3_alg».proof.Proof.Gen.KernelIdeal.Launch
import proofs.«418998_j80711025426734_3_alg».proof.Proof.Gen.KernelIdeal.Points
import proofs.«418998_j80711025426734_3_alg».proof.Proof.Gen.KernelIdeal.Frame
import proofs.«418998_j80711025426734_3_alg».proof.Proof.Gen.ReferenceIdeal
import proofs.«418998_j80711025426734_3_alg».proof.Proof.Gen.KernelIdeal.Value
import proofs.«418998_j80711025426734_3_alg».proof.Proof.Gen.ReferenceIdeal.Run
import proofs.«418998_j80711025426734_3_alg».proof.Proof.Gen.ReferenceIdeal.Read
import proofs.«418998_j80711025426734_3_alg».proof.Proof.Gen.Pre_finite_inputs
import proofs.«418998_j80711025426734_3_alg».proof.Proof.KernelArray
import proofs.«418998_j80711025426734_3_alg».proof.Proof.RefValue
import proofs.«418998_j80711025426734_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result array is `attn` of its first two arguments. -/
theorem ref_eq (X0 X1 : (⟨Cert.ReferenceIdeal.S4x4096x64, .f32⟩ : BufTy).Contents (Elt Ideal)) :
    Cert.ReferenceIdeal.Read.val_main_v14 (F := Ideal) X0 X1 = Cert.Spec.attn X0 X1 := by
  have key : ∀ (b : Fin 4) (q : Fin 4096) (d : Fin 64),
      Cert.ReferenceIdeal.Read.val_main_v14 (F := Ideal) X0 X1 (ix3 b q d) = Cert.Spec.attn X0 X1 (ix3 b q d) :=
    fun b q d => (Cert.ReferenceIdeal.RefValue.ref_apply X0 X1 b q d).trans rfl
  funext i
  have e : (ix3 (i 0 : Fin 4) (i 1 : Fin 4096) (i 2 : Fin 64) : (⟨3, ![4, 4096, 64]⟩ : Shape).Idx) = i :=
    funext fun a => by match a with | ⟨0, _⟩ => rfl | ⟨1, _⟩ => rfl | ⟨2, _⟩ => rfl
  have h := key (i 0) (i 1) (i 2)
  rw [e] at h
  exact h

/-- Both programs end with `attn` of the first two arguments in their result. -/
theorem algebraic : Cert.algebraic_KernelIdeal_ReferenceIdeal := by
  intro m ρ m' ρ' hpre hagree
  have hfin := fun c : Dev Cert.KernelIdeal.nD => Cert.Finite.real_of_pre _ _ _ (hpre c)
  refine ⟨fun c => Cert.Spec.attn (Cert.KernelIdeal.Blocks.qarr m c) (Cert.KernelIdeal.Blocks.karr m c), ?_, ?_⟩
  · exact (θ_run Cert.KernelIdeal.defs _ _).mono
      (fun r h c => ⟨(h c).1.trans (Cert.KernelIdeal.Final.final m c (hfin c).1 (hfin c).2), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, (hagree c).1, (hagree c).2.1]
    exact ref_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
